-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  reduces_S512x1024_S512 : S512x1024.Reduces [1] S512
  shapeCasts_S512_S512x1 : S512.ShapeCasts S512x1
  broadcasts_S512x1_S512x1024 : S512x1.Broadcasts S512x1024
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.CosineSpec.lean ====
/-
  Pairwise cosine similarity with clamped norms, as one function of the two argument arrays.

  For a row `u : Fin 1024 → EReal` write ‖u‖ for `max (√(Σ_j u_j · u_j)) ε`: the Euclidean norm, clamped below by the
  constant ε (the value of the float word `0x322BCC77`, which both programs carry). The similarity of two rows is
      Σ_k (u_k / ‖u‖) · (v_k / ‖v‖),
  and entry `(r, s)` of the result is the similarity of row `r` of the first array and row `s` of the second. An entry
  depends on two rows and on nothing else, so every tiling of the rows computes the same array, and nothing here needs the
  entries to be finite: the two programs apply the same operations to the same rows in the same order.
-/
import Idealize.ShloMosaic.PureOps.Ideal
import Idealize.ShloMosaic.Lib.ValueIdx

noncomputable section

open scoped BigOperators

namespace Cert.Cosine

open Idealize.ShloMosaic Idealize.ShloMosaic.ValueIdx

/-- The clamp ε as an extended real. -/
def eps : EReal := Ideal.ofBits .f32 0x322BCC77#32

/-- The Euclidean norm of a row, clamped below by ε. -/
def clampNorm (u : Fin 1024 → EReal) : EReal := max (Ideal.sqrt (∑ j : Fin 1024, u j * u j)) eps

/-- The cosine similarity of two rows: the sum of the products of their entries, each divided by its row's clamped norm. -/
def cosRow (u v : Fin 1024 → EReal) : EReal :=
  ∑ k : Fin 1024, Ideal.div (u k) (clampNorm u) * Ideal.div (v k) (clampNorm v)

/-- The result array: entry `(r, s)` is the similarity of row `r` of `a` and row `s` of `b`. -/
def cosSim (a b : (⟨2, ![8192, 1024]⟩ : Shape).Idx → EReal) : (⟨2, ![8192, 8192]⟩ : Shape).Idx → EReal :=
  fun i => cosRow (fun k => a (ix2 (⟨(i 0).val, (i 0).isLt⟩ : Fin 8192) k)) (fun k => b (ix2 (⟨(i 1).val, (i 1).isLt⟩ : Fin 8192) k))

/-- The result at an index given by its coordinates. -/
theorem cosSim_ix2 (a b : (⟨2, ![8192, 1024]⟩ : Shape).Idx → EReal) (r s : Fin 8192) :
    cosSim a b (ix2 r s) = cosRow (fun k => a (ix2 r k)) (fun k => b (ix2 s k)) := rfl

end Cert.Cosine

end
-- ==== Proof.RefCosine.lean ====
/-
  The reference computes the cosine-similarity array.

  Its program takes, for each argument, the row sums of squares (a host sum from the initial value 0), their square roots as a
  column, the maximum with the constant ε, divides the argument by that column broadcast along the rows, and contracts the
  two quotients over their second axes. Read at an index `(r, s)`, stage by stage, that is the sum over `k` of
  `(a (r, k) / ‖row r of a‖) · (b (s, k) / ‖row s of b‖)` with the clamped norms of `Cert.Cosine`: the array `cosSim a b`.
-/
import proofs.«106162_j68917045232240_1_alg».proof.Proof.Gen.ReferenceIdeal.Read
import proofs.«106162_j68917045232240_1_alg».proof.Proof.CosineSpec

noncomputable section

open scoped BigOperators

namespace Cert.ReferenceIdeal.Cosine

open Cert.ReferenceIdeal Cert.ReferenceIdeal.Read Cert.Cosine
open Idealize.ShloMosaic Idealize.ShloMosaic.ValueIdx

/-! ## The stages' composed index maps, in coordinates -/

/-- Row `r`'s sum runs over the entries `(r, k)`. -/
theorem idx_sum0 (r : Fin 8192) (k : Fin 1024) :
    idx_main_call0_v1 (idx_main_call0_v2 (ix2 r (0 : Fin 1))) k = ix2 r k :=
  funext fun a => Fin.ext (by match a with | ⟨0, _⟩ => rfl | ⟨1, _⟩ => rfl)

/-- The column broadcast along a row is read at the row's one entry `(r, 0)`. -/
theorem idx_col0 (r : Fin 8192) (k : Fin 1024) : idx_main_v6 (ix2 r k) = ix2 r (0 : Fin 1) :=
  funext fun a => Fin.ext (by match a with | ⟨0, _⟩ => rfl | ⟨1, _⟩ => rfl)

/-- The contraction reads the left operand at `(r, k)` and the right one at `(s, k)`. -/
theorem idx_lhs (r s : Fin 8192) (k : Fin 1024) : lidx_main_v10 (ix2 r s) k = ix2 r k :=
  funext fun a => Fin.ext (by match a with | ⟨0, _⟩ => rfl | ⟨1, _⟩ => rfl)
theorem idx_rhs (r s : Fin 8192) (k : Fin 1024) : ridx_main_v10 (ix2 r s) k = ix2 s k :=
  funext fun a => Fin.ext (by match a with | ⟨0, _⟩ => rfl | ⟨1, _⟩ => rfl)

/-! ## The stages at an index -/

/-- The first argument's clamped column at row `r` is the clamped norm of that row: the host sum starts from the value of the
    zero word, which is `0`. -/
theorem norm_apply (x : FVec Ideal S8192x1024 .f32) (r : Fin 8192) :
    val_main_v2 (F := Ideal) x (ix2 r (0 : Fin 1)) = clampNorm (fun k => x (ix2 r k)) := by
  rw [val_main_v2_apply, val_main_v0_apply, val_main_call0_v2_apply, val_main_call0_v1_apply, val_main_v1_apply,
    val_main_cst_apply, val_main_call0_cst_apply]
  simp only [val_main_call0_v0_apply, idx_sum0, Ideal.maximumf_def, Ideal.hostUnary_sqrt_def, Ideal.mulf_def, Ideal.ofBits_def,
    Ideal.ofBits_zero_f32, zero_add]
  rfl

/-- The first quotient at `(r, k)`: the entry over its row's clamped norm. -/
theorem quot_apply (x : FVec Ideal S8192x1024 .f32) (r : Fin 8192) (k : Fin 1024) :
    val_main_v7 (F := Ideal) x (ix2 r k) = Ideal.div (x (ix2 r k)) (clampNorm (fun k => x (ix2 r k))) := by
  rw [val_main_v7_apply, val_main_v6_apply, idx_col0, norm_apply]
  rfl

/-- The second argument goes through the same stages under other names. -/
theorem quot_second (x : FVec Ideal S8192x1024 .f32) : val_main_v9 (F := Ideal) x = val_main_v7 (F := Ideal) x := rfl

/-! ## The result -/

/-- The reference's last stage is the cosine-similarity array of its two arguments. -/
theorem result_eq (x0 x1 : FVec Ideal S8192x1024 .f32) : val_main_v10 (F := Ideal) x0 x1 = cosSim x0 x1 := by
  funext i
  obtain ⟨r, s, rfl⟩ : ∃ (r s : Fin 8192), i = ix2 r s := ⟨i 0, i 1, eq_ix2 i⟩
  rw [val_main_v10_apply, cosSim_ix2]
  unfold cosRow
  refine Finset.sum_congr rfl fun k _ => ?_
  rw [idx_lhs, idx_rhs, quot_second, quot_apply, quot_apply]

end Cert.ReferenceIdeal.Cosine

end
-- ==== Proof.LibColumnLayout.lean ====
/-
  Layout operations on a column of per-row values, read at an index given by coordinates.

  A reduction of an `[a, b]` array along its second axis leaves one value per row, an `[a]` array. Keeping the reduced
  axis as a unit axis casts it to a column `[a, 1]`, and using the column against the `[a, b]` array broadcasts it back
  along the second axis. Read at an index these are: the column at `(i, 0)` is the vector at `i`; the broadcast at
  `(p, c)` is the column at `(p, 0)`, whatever the column `c`; and, over the extended reals, the row sum at `p` is the
  sum over `k` of the array at `(p, k)`.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the unit axis is read at `0`,
    the row axis at `p` (when `a = 1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals, the sum of an `[a, b]` array along its second axis, read at row `p`, is the sum over
    `k : Fin b` of the array at `(p, k)`: the reduced index `p` with the coordinate `k` put back on axis 1 is `(p, k)`. -/
theorem multiReduction_add_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src (funext fun ax => Fin.ext ?_)
  match ax with
  | ⟨0, _⟩ => rfl
  | ⟨1, _⟩ => rfl

end Idealize.ShloMosaic.ValueIdx
-- ==== Proof.BlockCosine.lean ====
/-
  What the kernel body computes from one block of each argument.

  The body takes a block of 1024 rows of the first argument and a block of 512 rows of the second. Of each it takes the row
  sums of squares, their square roots as a column, the maximum with ε, and divides the block by that column broadcast along
  the rows (the change of float format that follows is the identity over the extended reals); then it contracts the two
  quotients over their second axes into a zero accumulator. At `(p, q)` that is the cosine similarity `Cert.Cosine.cosRow`
  of row `p` of the first block and row `q` of the second.
-/
import proofs.«106162_j68917045232240_1_alg».proof.Proof.Gen.KernelIdeal.Skeleton
import proofs.«106162_j68917045232240_1_alg».proof.Proof.LibColumnLayout
import proofs.«106162_j68917045232240_1_alg».proof.Proof.CosineSpec
import Idealize.ShloMosaic.PureOps.Ideal.Laws
import Idealize.ShloMosaic.Lib.ValueIdx

noncomputable section

open scoped BigOperators

namespace Cert.KernelIdeal.Cosine

open Cert.KernelIdeal Cert.KernelIdeal.Gen Cert.Cosine
open Idealize.ShloMosaic Idealize.ShloMosaic.ValueIdx

/-! ## A block with every row divided by its clamped norm -/

/-- The 1024-row block with each entry divided by its row's clamped norm, as the body writes it. -/
def unitRowsL (x : FVec Ideal S1024x1024 .f32) : FVec Ideal S1024x1024 .bf16 :=
  truncf .bf16 (divf x (broadcastTo S1024x1024 (maximumf (sqrt (shapeCast S1024x1 (multiReduction .add [1] S1024 (mulf x x) 0x00000000#32 reduces_S1024x1024_S1024 (.inl rfl) rfl) shapeCasts_S1024_S1024x1)) (broadcast S1024x1 (Scalar.ofBits .f32 0x322BCC77#32))) broadcasts_S1024x1_S1024x1024)) bitsLt_bf16_f32

/-- The 512-row block likewise. -/
def unitRowsR (x : FVec Ideal S512x1024 .f32) : FVec Ideal S512x1024 .bf16 :=
  truncf .bf16 (divf x (broadcastTo S512x1024 (maximumf (sqrt (shapeCast S512x1 (multiReduction .add [1] S512 (mulf x x) 0x00000000#32 reduces_S512x1024_S512 (.inl rfl) rfl) shapeCasts_S512_S512x1)) (broadcast S512x1 (Scalar.ofBits .f32 0x322BCC77#32))) broadcasts_S512x1_S512x1024)) bitsLt_bf16_f32

/-- The sum of squares along row `p` of the 1024-row block. -/
theorem rowSumL (x : FVec Ideal S1024x1024 .f32) (p : Fin 1024) :
    multiReduction .add [1] S1024 (mulf x x) 0x00000000#32 reduces_S1024x1024_S1024 (.inl rfl) rfl (ix1 p)
      = ∑ k : Fin 1024, x (ix2 p k) * x (ix2 p k) :=
  multiReduction_add_row_apply (mulf x x) 0x00000000#32 reduces_S1024x1024_S1024 (.inl rfl) rfl p

/-- The sum of squares along row `q` of the 512-row block. -/
theorem rowSumR (x : FVec Ideal S512x1024 .f32) (q : Fin 512) :
    multiReduction .add [1] S512 (mulf x x) 0x00000000#32 reduces_S512x1024_S512 (.inl rfl) rfl (ix1 q)
      = ∑ k : Fin 1024, x (ix2 q k) * x (ix2 q k) :=
  multiReduction_add_row_apply (mulf x x) 0x00000000#32 reduces_S512x1024_S512 (.inl rfl) rfl q

/-- At `(p, k)`: the entry over the clamped norm of row `p`. The broadcast column is read at `(p, 0)`, the cast column at
    `p`, and the row sum there is the sum of the row's squares. -/
theorem unitRowsL_apply (x : FVec Ideal S1024x1024 .f32) (p k : Fin 1024) :
    unitRowsL x (ix2 p k) = Ideal.div (x (ix2 p k)) (clampNorm (fun k => x (ix2 p k))) := by
  show Ideal.div (x (ix2 p k)) (broadcastTo S1024x1024 _ broadcasts_S1024x1_S1024x1024 (ix2 p k)) = _
  rw [broadcastTo_a1_ab_apply]
  show Ideal.div (x (ix2 p k)) (max (Ideal.sqrt (shapeCast S1024x1 _ shapeCasts_S1024_S1024x1 (ix2 p (0 : Fin 1)))) (Ideal.ofBits .f32 0x322BCC77#32)) = _
  rw [shapeCast_a_a1_apply]
  exact congrArg (fun z => Ideal.div (x (ix2 p k)) (max (Ideal.sqrt z) (Ideal.ofBits .f32 0x322BCC77#32))) (rowSumL x p)

theorem unitRowsR_apply (x : FVec Ideal S512x1024 .f32) (q : Fin 512) (k : Fin 1024) :
    unitRowsR x (ix2 q k) = Ideal.div (x (ix2 q k)) (clampNorm (fun k => x (ix2 q k))) := by
  show Ideal.div (x (ix2 q k)) (broadcastTo S512x1024 _ broadcasts_S512x1_S512x1024 (ix2 q k)) = _
  rw [broadcastTo_a1_ab_apply]
  show Ideal.div (x (ix2 q k)) (max (Ideal.sqrt (shapeCast S512x1 _ shapeCasts_S512_S512x1 (ix2 q (0 : Fin 1)))) (Ideal.ofBits .f32 0x322BCC77#32)) = _
  rw [shapeCast_a_a1_apply]
  exact congrArg (fun z => Ideal.div (x (ix2 q k)) (max (Ideal.sqrt z) (Ideal.ofBits .f32 0x322BCC77#32))) (rowSumR x q)

/-! ## The contraction's operand indices -/

theorem lhs_dot_0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_dot_1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
theorem rhs_dot_0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_dot_1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

/-! ## The payload -/

/-- The body's stored value is the contraction of the two normalized blocks into the zero accumulator. -/
theorem pay_eq (x0 : Vec Ideal S1024x1024 .f32) (x1 : Vec Ideal S512x1024 .f32) :
    k0_pay1 (F := Ideal) x0 x1 = matmul dot_S1024x1024_S512x1024_S1024x512_1_1_0_0_n_n none (unitRowsL x0) (unitRowsR x1) (constant S1024x512 .f32 0x00000000#32) := rfl

/-- At `(p, q)` it is the cosine similarity of row `p` of the first block and row `q` of the second: the contraction over the
    extended reals is the plain sum over the one contracted coordinate, the left factor read at `(p, k)`, the right at `(q, k)`. -/
theorem pay_apply (x0 : Vec Ideal S1024x1024 .f32) (x1 : Vec Ideal S512x1024 .f32) (p : Fin 1024) (q : Fin 512) :
    k0_pay1 (F := Ideal) x0 x1 (ix2 p q) = cosRow (fun k => x0 (ix2 p k)) (fun k => x1 (ix2 q k)) := by
  rw [pay_eq]
  simp only [matmul]
  rw [Ideal.matmul_constant_zero_apply, ← Equiv.sum_comp (contrEquiv1 dot_S1024x1024_S512x1024_S1024x512_1_1_0_0_n_n 1024 rfl rfl).symm]
  unfold cosRow
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact rhs_dot_0 _ _
    | ⟨1, _⟩ => exact (rhs_dot_1 _ _).trans hk)
  rw [el, er, unitRowsL_apply, unitRowsR_apply]

end Cert.KernelIdeal.Cosine

end
-- ==== Proof.ArrayCosine.lean ====
/-
  From the kernel's blocks to its result array.

  The grid has 8 × 16 points. At point `(i, j)` the body is given rows `1024 i … 1024 i + 1023` of the first argument and rows
  `512 j … 512 j + 511` of the second, and what it leaves is written back as block `(i, j)` of the result, of 1024 × 512
  entries. Entry `(p, q)` of that block is the cosine similarity of row `p` of the one block and row `q` of the other, which
  are rows `1024 i + p` and `512 j + q` of the arguments: the block is the restriction of `Cert.Cosine.cosSim` of the two
  arguments to its rectangle. The 128 rectangles cover the result (the one that holds `(r, s)` is `(r / 1024, s / 512)`), so
  after the run the result array is `cosSim` of the arguments.
-/
import proofs.«106162_j68917045232240_1_alg».proof.Proof.Gen.KernelIdeal.Value
import proofs.«106162_j68917045232240_1_alg».proof.Proof.BlockCosine
import Idealize.ShloMosaic.Lib.Pipeline.Value
import Idealize.ShloMosaic.Lib.Tactic

noncomputable section

open scoped BigOperators

namespace Cert.KernelIdeal.Cosine

open Cert.KernelIdeal Cert.KernelIdeal.Gen Cert.KernelIdeal.Value Cert.Cosine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The body's value at any index of its output block, by the index's two coordinates. -/
theorem pay_at (x0 : Vec Ideal S1024x1024 .f32) (x1 : Vec Ideal S512x1024 .f32) (y : S1024x512.Idx) :
    k0_pay1 (F := Ideal) x0 x1 y
      = cosRow (fun k => x0 (ix2 (⟨(y 0).val, (y 0).isLt⟩ : Fin 1024) k)) (fun k => x1 (ix2 (⟨(y 1).val, (y 1).isLt⟩ : Fin 512) k)) := by
  obtain ⟨p, q, rfl⟩ : ∃ (p : Fin 1024) (q : Fin 512), y = ix2 p q := ⟨y 0, y 1, eq_ix2 y⟩
  exact pay_apply x0 x1 p q

/-- The index maps over the grid: the first argument's block row is the output's block row, the second argument's block row is
    the output's block column, neither input block moves along the columns, and the output's block indices stay below 8 and 16. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 15 :=
  (by decide +kernel : ∀ t : Fin grid0.N, _)

/-- Every block of the 8 × 16 tiling is some point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-- An entry of the first argument's block at point `t` is the argument's entry `1024` rows per block index further down. -/
theorem left_block_apply (c : Dev nD) (t : Fin cfg0.N) (y : S1024x1024.Idx) (i : S8192x1024.Idx)
    (h0 : (i 0).val = win0_0.index t (0 : Fin 2) * 1024 + (y 0).val) (h1 : (i 1).val = win0_0.index t (1 : Fin 2) * 1024 + (y 1).val) :
    (iblk m c 0 t : Vec Ideal S1024x1024 .f32) y = (V m c main_arg0 : S8192x1024.Idx → EReal) i := by
  unfold iblk
  rw [View.read_apply]
  show V m c main_arg0 _ = V m c main_arg0 _
  congr 1
  funext a
  apply Fin.ext
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- An entry of the second argument's block at point `t`, likewise with `512` rows per block index. -/
theorem right_block_apply (c : Dev nD) (t : Fin cfg0.N) (y : S512x1024.Idx) (i : S8192x1024.Idx)
    (h0 : (i 0).val = win0_1.index t (0 : Fin 2) * 512 + (y 0).val) (h1 : (i 1).val = win0_1.index t (1 : Fin 2) * 1024 + (y 1).val) :
    (iblk m c 1 t : Vec Ideal S512x1024 .f32) y = (V m c main_arg1 : S8192x1024.Idx → EReal) i := by
  unfold iblk
  rw [View.read_apply]
  show V m c main_arg1 _ = V m c main_arg1 _
  congr 1
  funext a
  apply Fin.ext
  match a with
  | ⟨0, _⟩ => show win0_1.index t (0 : Fin 2) * 512 + 1 * (y 0).val = (i 0).val; omega
  | ⟨1, _⟩ => show win0_1.index t (1 : Fin 2) * 1024 + 1 * (y 1).val = (i 1).val; omega

/-- What point `t` writes back is block `t` of the cosine-similarity array of the two arguments. -/
theorem flushed_eq (c : Dev nD) (t : Fin cfg0.N) :
    (dats m 0 c).flushed 2 t = ((cfg0.win 2).blk t).view.read (Elt Ideal) (cosSim (V m c main_arg0) (V m c main_arg1)) := by
  rw [flushed2]
  unfold out0_2
  rw [View.canon_unit_zero zero_offsets]
  simp only [View.ld_unit_zero (S := S1024x1024) zero_offsets, View.ld_unit_zero (S := S512x1024) zero_offsets]
  obtain ⟨e0, e1, e2, e3, -, -⟩ := idx_facts t
  funext j
  show k0_pay1 (F := Ideal) (iblk m c 0 t) (iblk m c 1 t) j = cosSim (V m c main_arg0) (V m c main_arg1) (((cfg0.win 2).blk t).view.emb j)
  refine (pay_at (iblk m c 0 t) (iblk m c 1 t) j).trans ?_
  unfold cosSim
  congr 1 <;> funext k
  · refine left_block_apply m c t _ _ ?_ ?_
    · show win0_2.index t (0 : Fin 2) * 1024 + 1 * (j 0).val = win0_0.index t (0 : Fin 2) * 1024 + (j 0).val
      omega
    · show k.val = win0_0.index t (1 : Fin 2) * 1024 + k.val
      omega
  · refine right_block_apply m c t _ _ ?_ ?_
    · show win0_2.index t (1 : Fin 2) * 512 + 1 * (j 1).val = win0_1.index t (0 : Fin 2) * 512 + (j 1).val
      omega
    · show k.val = win0_1.index t (1 : Fin 2) * 1024 + k.val
      omega

/-- An index of the result is in point `t`'s block iff each coordinate is in the block's range on its axis. -/
theorem mem_block (t : Fin cfg0.N) (i : S8192x8192.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The blocks cover the result: `(r, s)` lies in the block of the point whose block indices are `(r / 1024, s / 512)`. -/
theorem covered (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- After the run the result array is the cosine-similarity array of the argument arrays as launched. -/
theorem final (c : Dev nD) :
    (dats m 0 c).arrAt 2 cfg0.N = cosSim (m ((c : Thread nD τ).loc main_arg0)) (m ((c : Thread nD τ).loc main_arg1)) :=
  (dats m 0 c).arrAt_eq_of_cover 2 (cosSim (V m c main_arg0) (V m c main_arg1)) (fun t _ => flushed_eq m c t) covered

/-- Every weakly fair run of the kernel's program ends with the result at that array and the arguments unchanged. -/
theorem run : θ_run defs (onTc (τ := τ) (main (F := Ideal))) ⟨m, fun _ => 0, ρ⟩ fun r => ∀ c : Dev nD,
      r.2.mem ((c : Thread nD τ).loc main_v0) = cosSim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelIdeal.Cosine

end
-- ==== Proof.lean ====
/-
  Pairwise cosine similarity of the rows of two 8192 × 1024 arrays: a tiled kernel against the whole-array reference, over the
  extended reals.

  Both programs compute, for rows `u` of the first array and `v` of the second,
      Σ_k (u_k / ‖u‖) · (v_k / ‖v‖),   ‖u‖ = max (√(Σ_j u_j · u_j)) ε,
  with the same constant ε (`Cert.Cosine`). The reference does it on the whole arrays; the kernel on an 8 × 16 grid, block
  `(i, j)` of the result from 1024 rows of the first array and 512 rows of the second. Over the extended reals a change of float
  format is the identity, a row sum is a plain sum, and a contraction into a zero accumulator is the plain sum of products, so
  the two programs apply the same operations to the same rows: entry by entry the results are the same term, and no law of
  arithmetic (hence no finiteness of the inputs) is used.
  • The reference's last stage is `cosSim` of its arguments: `Cert.ReferenceIdeal.Cosine.result_eq`.
  • The kernel body's value on a pair of blocks, at `(p, q)`, is the similarity of row `p` and row `q` of the blocks:
    `Cert.KernelIdeal.Cosine.pay_apply`; each written block is the restriction of `cosSim` of the arguments to its rectangle, the
    rectangles cover the result, and so the result array after the run is `cosSim` of the arguments: `Cert.KernelIdeal.Cosine.run`.
  The three frames are the generated ones (the reference's is its run with the result dropped); the idealization rewrote no
  operation, so there is nothing to preserve.
-/
import proofs.«106162_j68917045232240_1_alg».proof.Defs
import proofs.«106162_j68917045232240_1_alg».proof.Proof.Gen.Kernel
import proofs.«106162_j68917045232240_1_alg».proof.Proof.Gen.Kernel.Skeleton
import proofs.«106162_j68917045232240_1_alg».proof.Proof.Gen.Kernel.Launch
import proofs.«106162_j68917045232240_1_alg».proof.Proof.Gen.Kernel.Points
import proofs.«106162_j68917045232240_1_alg».proof.Proof.Gen.Kernel.Frame
import proofs.«106162_j68917045232240_1_alg».proof.Proof.Gen.KernelIdeal
import proofs.«106162_j68917045232240_1_alg».proof.Proof.Gen.KernelIdeal.Skeleton
import proofs.«106162_j68917045232240_1_alg».proof.Proof.Gen.KernelIdeal.Launch
import proofs.«106162_j68917045232240_1_alg».proof.Proof.Gen.KernelIdeal.Points
import proofs.«106162_j68917045232240_1_alg».proof.Proof.Gen.KernelIdeal.Frame
import proofs.«106162_j68917045232240_1_alg».proof.Proof.Gen.ReferenceIdeal
import proofs.«106162_j68917045232240_1_alg».proof.Proof.Gen.Pre_finite_inputs
import proofs.«106162_j68917045232240_1_alg».proof.Proof.Gen.KernelIdeal.Value
import proofs.«106162_j68917045232240_1_alg».proof.Proof.Gen.ReferenceIdeal.Run
import proofs.«106162_j68917045232240_1_alg».proof.Proof.Gen.ReferenceIdeal.Read
import Idealize.ShloMosaic.Adequacy
import Idealize.ShloMosaic.Init
import proofs.«106162_j68917045232240_1_alg».proof.Proof.RefCosine
import proofs.«106162_j68917045232240_1_alg».proof.Proof.ArrayCosine

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs to its composed term and leaves its arguments as they were; the frame keeps the second half. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories that agree on the two arguments, the kernel's result array ends at `cosSim` of its arguments and the
    reference's at its last stage of its own, which is `cosSim` of them too; the arguments agree, so the results are equal. -/
theorem algebraic : Cert.algebraic_KernelIdeal_ReferenceIdeal := by
  intro m ρ m' ρ' _ hagree
  refine ⟨fun c => Cert.Cosine.cosSim (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Cosine.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
